-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part7 {F : FTy → Type} [FloatOps F] (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  main_v123

def fn_part6 {F : FTy → Type} [FloatOps F] (main_arg21 : FVec F S256x512 .f32) (main_arg22 : FVec F S512x512 .f32) (main_arg23 : FVec F S512x512 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S256x512 .f32 := Host.absf main_arg21
  let main_cst_40 : FVec F S_ .f32 := constant S_ .f32 0x7F800000#32
  let main_v105 : FVec F S256x512 .f32 := broadcastInDim S256x512 ![] bcast_S_S256x512 main_cst_40
  let main_v106 : IVec S256x512 1 := cmpf .olt main_v104 main_v105
  let main_c_41 : IVec S_ 1 := constantI S_ 1 1#1
  let main_v107 : IVec S_ 1 := (fun x v => Host.reduce IntOp.andi x v reducesTo_S256x512_S_d0_1 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512x512 .f32 := Host.absf main_arg23
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S512 .f32 := Host.absf main_arg24
  fn_part7 (F := F) main_v118 main_v119

def fn_part5 {F : FTy → Type} [FloatOps F] (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v83 : IVec S_ 1) (main_v84 : FVec F S256x512 .f32) (main_cst_32 : FVec F S_ .f32) : IVec S_ 1 :=
  let main_v85 : FVec F S256x512 .f32 := broadcastInDim S256x512 ![] bcast_S_S256x512 main_cst_32
  let main_v86 : IVec S256x512 1 := cmpf .olt main_v84 main_v85
  let main_c_33 : IVec S_ 1 := constantI S_ 1 1#1
  let main_v87 : IVec S_ 1 := (fun x v => Host.reduce IntOp.andi x v reducesTo_S256x512_S_d0_1 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S256x512 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S8192x512 .f32) (main_arg5 : FVec F S256x512 .f32) (main_arg6 : FVec F S512x512 .f32) (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x256 .f32) (main_arg1 : FVec F S8192x512 .f32) (main_arg2 : FVec F S8192x512 .f32) (main_arg3 : FVec F S8192x512 .f32) (main_arg4 : FVec F S8192x512 .f32) (main_arg5 : FVec F S256x512 .f32) (main_arg6 : FVec F S512x512 .f32) (main_arg7 : FVec F S512x512 .f32) (main_arg8 : FVec F S512 .f32) (main_arg9 : FVec F S256x512 .f32) (main_arg10 : FVec F S512x512 .f32) (main_arg11 : FVec F S512x512 .f32) (main_arg12 : FVec F S512 .f32) (main_arg13 : FVec F S256x512 .f32) (main_arg14 : FVec F S512x512 .f32) (main_arg15 : FVec F S512x512 .f32) (main_arg16 : FVec F S512 .f32) (main_arg17 : FVec F S256x512 .f32) (main_arg18 : FVec F S512x512 .f32) (main_arg19 : FVec F S512x512 .f32) (main_arg20 : FVec F S512 .f32) (main_arg21 : FVec F S256x512 .f32) (main_arg22 : FVec F S512x512 .f32) (main_arg23 : FVec F S512x512 .f32) (main_arg24 : FVec F S512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S256x2560 : Shape := ⟨2, ![256, 2560]⟩
abbrev S512x2560 : Shape := ⟨2, ![512, 2560]⟩
abbrev S2560 : Shape := ⟨1, ![2560]⟩
abbrev S1x2560 : Shape := ⟨2, ![1, 2560]⟩
abbrev S512x256 : Shape := ⟨2, ![512, 256]⟩

abbrev nBuf : Space → Nat
  | .hbm => 32
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S256x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S256x512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S256x512, .f32⟩
  | .hbm, ⟨18, _⟩ => ⟨S512x512, .f32⟩
  | .hbm, ⟨19, _⟩ => ⟨S512x512, .f32⟩
  | .hbm, ⟨20, _⟩ => ⟨S512, .f32⟩
  | .hbm, ⟨21, _⟩ => ⟨S256x512, .f32⟩
  | .hbm, ⟨22, _⟩ => ⟨S512x512, .f32⟩
  | .hbm, ⟨23, _⟩ => ⟨S512x512, .f32⟩
  | .hbm, ⟨24, _⟩ => ⟨S512, .f32⟩
  | .hbm, ⟨25, _⟩ => ⟨S256x2560, .f32⟩
  | .hbm, ⟨26, _⟩ => ⟨S512x2560, .f32⟩
  | .hbm, ⟨27, _⟩ => ⟨S512x2560, .f32⟩
  | .hbm, ⟨28, _⟩ => ⟨S2560, .f32⟩
  | .hbm, ⟨29, _⟩ => ⟨S1x2560, .f32⟩
  | .hbm, ⟨30, _⟩ => ⟨S8192x512, .f32⟩
  | .hbm, ⟨31, _⟩ => ⟨S8192x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S256x2560, .f32⟩
  | .local _ .vmem, ⟨11, _⟩ => ⟨S512x2560, .f32⟩
  | .local _ .vmem, ⟨12, _⟩ => ⟨S512x2560, .f32⟩
  | .local _ .vmem, ⟨13, _⟩ => ⟨S1x2560, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5_0 : Ref sig .tc := ⟨.hbm, 30, rfl⟩
abbrev main_v5_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S256x512_S256x512_S256x512_S256x512_S256x512_S256x2560_d1 : Shape.Concatenates [S256x512, S256x512, S256x512, S256x512, S256x512] S256x2560 1
  concatenates_S512x512_S512x512_S512x512_S512x512_S512x512_S512x2560_d1 : Shape.Concatenates [S512x512, S512x512, S512x512, S512x512, S512x512] S512x2560 1
  concatenates_S512_S512_S512_S512_S512_S2560_d0 : Shape.Concatenates [S512, S512, S512, S512, S512] S2560 0
  shapeCasts_S2560_S1x2560 : S2560.ShapeCasts S1x2560
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S512x2560 : S1x2560.Broadcasts S512x2560
  slices_S512x2560_o0_0_S512x512 : S512x2560.Slices ![0, 0] S512x512
  slices_S512x2560_o0_512_S512x512 : S512x2560.Slices ![0, 512] S512x512
  slices_S512x2560_o0_1024_S512x512 : S512x2560.Slices ![0, 1024] S512x512
  slices_S512x2560_o0_1536_S512x512 : S512x2560.Slices ![0, 1536] S512x512
  slices_S512x2560_o0_2048_S512x512 : S512x2560.Slices ![0, 2048] S512x512
  dot_S512x256_S256x2560_S512x2560_1_0_0_1_n_n_wf : DotDims.WF S512x256 S256x2560 S512x2560 [1] [0] [0] [1] [] []
  dot_S512x512_S512x2560_S512x2560_1_0_0_1_n_n_wf : DotDims.WF S512x512 S512x2560 S512x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .f32 = 32 ∨ (Rect.block (s := S8192x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x512.size a
  hwx0_4 : ∀ i : grid0.Coords, EltTy.bits .f32 = 32 ∨ (Rect.block (s := S8192x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2560.size a ≤ S256x2560.size a
  hwx0_5 : ∀ i : grid0.Coords, EltTy.bits .f32 = 32 ∨ (Rect.block (s := S256x2560) S256x2560.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2560.size a ≤ S512x2560.size a
  hwx0_6 : ∀ i : grid0.Coords, EltTy.bits .f32 = 32 ∨ (Rect.block (s := S512x2560) S512x2560.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2560.size a ≤ S512x2560.size a
  hwx0_7 : ∀ i : grid0.Coords, EltTy.bits .f32 = 32 ∨ (Rect.block (s := S512x2560) S512x2560.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2560.size a ≤ S1x2560.size a
  hwx0_8 : ∀ i : grid0.Coords, EltTy.bits .f32 = 32 ∨ (Rect.block (s := S1x2560) S1x2560.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S8192x512.size a
  hwx0_9 : ∀ i : grid0.Coords, EltTy.bits .f32 = 32 ∨ (Rect.block (s := S8192x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x512.size a
  hwx0_10 : ∀ i : grid0.Coords, EltTy.bits .f32 = 32 ∨ (Rect.block (s := S8192x512) S512x512.size (cc0_transform_10 i) (hinb0_10 i)).WholeWords (EltTy.packing .f32)

variable [Facts₀]

def dot_S512x256_S256x2560_S512x2560_1_0_0_1_n_n : DotDims S512x256 S256x2560 S512x2560 where
  lhsContracting := [1]
  rhsContracting := [0]
  lhsNonContracting := [0]
  rhsNonContracting := [1]
  lhsBatch := []
  rhsBatch := []
  wf := dot_S512x256_S256x2560_S512x2560_1_0_0_1_n_n_wf
def dot_S512x512_S512x2560_S512x2560_1_0_0_1_n_n : DotDims S512x512 S512x2560 S512x2560 where
  lhsContracting := [1]
  rhsContracting := [0]
  lhsNonContracting := [0]
  rhsNonContracting := [1]
  lhsBatch := []
  rhsBatch := []
  wf := dot_S512x512_S512x2560_S512x2560_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2560.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x2560.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2560.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_1) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x512 : Shape := ⟨2, ![8192, 512]⟩
abbrev S256x512 : Shape := ⟨2, ![256, 512]⟩
abbrev S512x512 : Shape := ⟨2, ![512, 512]⟩
abbrev S512 : Shape := ⟨1, ![512]⟩
abbrev S256x2560 : Shape := ⟨2, ![256, 2560]⟩
abbrev S512x2560 : Shape := ⟨2, ![512, 2560]⟩
abbrev S2560 : Shape := ⟨1, ![2560]⟩
abbrev S8192x2560 : Shape := ⟨2, ![8192, 2560]⟩
abbrev S1x2560 : Shape := ⟨2, ![1, 2560]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S256x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S256x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S256x512, .f32⟩
  | .hbm, ⟨14, _⟩ => ⟨S512x512, .f32⟩
  | .hbm, ⟨15, _⟩ => ⟨S512x512, .f32⟩
  | .hbm, ⟨16, _⟩ => ⟨S512, .f32⟩
  | .hbm, ⟨17, _⟩ => ⟨S256x512, .f32⟩
  | .hbm, ⟨18, _⟩ => ⟨S512x512, .f32⟩
  | .hbm, ⟨19, _⟩ => ⟨S512x512, .f32⟩
  | .hbm, ⟨20, _⟩ => ⟨S512, .f32⟩
  | .hbm, ⟨21, _⟩ => ⟨S256x512, .f32⟩
  | .hbm, ⟨22, _⟩ => ⟨S512x512, .f32⟩
  | .hbm, ⟨23, _⟩ => ⟨S512x512, .f32⟩
  | .hbm, ⟨24, _⟩ => ⟨S512, .f32⟩
  | .hbm, ⟨25, _⟩ => ⟨S256x2560, .f32⟩
  | .hbm, ⟨26, _⟩ => ⟨S512x2560, .f32⟩
  | .hbm, ⟨27, _⟩ => ⟨S512x2560, .f32⟩
  | .hbm, ⟨28, _⟩ => ⟨S2560, .f32⟩
  | .hbm, ⟨29, _⟩ => ⟨S8192x2560, .f32⟩
  | .hbm, ⟨30, _⟩ => ⟨S8192x2560, .f32⟩
  | .hbm, ⟨31, _⟩ => ⟨S8192x2560, .f32⟩
  | .hbm, ⟨32, _⟩ => ⟨S8192x2560, .f32⟩
  | .hbm, ⟨33, _⟩ => ⟨S8192x2560, .f32⟩
  | .hbm, ⟨34, _⟩ => ⟨S1x2560, .f32⟩
  | .hbm, ⟨35, _⟩ => ⟨S8192x2560, .f32⟩
  | .hbm, ⟨36, _⟩ => ⟨S8192x2560, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  concatenates_S256x512_S256x512_S256x512_S256x512_S256x512_S256x2560_d1 : Shape.Concatenates [S256x512, S256x512, S256x512, S256x512, S256x512] S256x2560 1
  concatenates_S512x512_S512x512_S512x512_S512x512_S512x512_S512x2560_d1 : Shape.Concatenates [S512x512, S512x512, S512x512, S512x512, S512x512] S512x2560 1
  concatenates_S512_S512_S512_S512_S512_S2560_d0 : Shape.Concatenates [S512, S512, S512, S512, S512] S2560 0
  bcast_S2560_S1x2560_1 : S2560.BroadcastsInDim S1x2560 (![1] : Fin 1 → Fin S1x2560.rank)
  bcast_S1x2560_S8192x2560_0_1 : S1x2560.BroadcastsInDim S8192x2560 (![0, 1] : Fin 2 → Fin S8192x2560.rank)
  slices_S8192x2560_S8192x512_0_0 : S8192x2560.Slices ![0, 0] S8192x512
  slices_S8192x2560_S8192x512_0_512 : S8192x2560.Slices ![0, 512] S8192x512
  slices_S8192x2560_S8192x512_0_1024 : S8192x2560.Slices ![0, 1024] S8192x512
  slices_S8192x2560_S8192x512_0_1536 : S8192x2560.Slices ![0, 1536] S8192x512
  slices_S8192x2560_S8192x512_0_2048 : S8192x2560.Slices ![0, 2048] S8192x512
  bcast_S_S8192x512 : S_.BroadcastsInDim S8192x512 (![] : Fin 0 → Fin S8192x512.rank)
  dot_S8192x256_S256x2560_S8192x2560_1_0_0_1_n_n_wf : DotDims.WF S8192x256 S256x2560 S8192x2560 [1] [0] [0] [1] [] []
  dot_S8192x512_S512x2560_S8192x2560_1_0_0_1_n_n_wf : DotDims.WF S8192x512 S512x2560 S8192x2560 [1] [0] [0] [1] [] []

variable [Facts₀]

def dot_S8192x256_S256x2560_S8192x2560_1_0_0_1_n_n : DotDims S8192x256 S256x2560 S8192x2560 where
  lhsContracting := [1]
  rhsContracting := [0]
  lhsNonContracting := [0]
  rhsNonContracting := [1]
  lhsBatch := []
  rhsBatch := []
  wf := dot_S8192x256_S256x2560_S8192x2560_1_0_0_1_n_n_wf
def dot_S8192x512_S512x2560_S8192x2560_1_0_0_1_n_n : DotDims S8192x512 S512x2560 S8192x2560 where
  lhsContracting := [1]
  rhsContracting := [0]
  lhsNonContracting := [0]
  rhsNonContracting := [1]
  lhsBatch := []
  rhsBatch := []
  wf := dot_S8192x512_S512x2560_S8192x2560_1_0_0_1_n_n_wf

class Facts : Prop extends Facts₀ where

variable [Facts]
-- ==== Proof.IdealFrame.lean ====
/-
  The frame of the fused cell step, hand-written: @main concatenates the five gates' weight
  matrices (and biases) column-wise, then one pipelined region of 16 grid points runs the body on
  512 rows at a time. The region finds every argument array as launched (the host lines write only
  their own results); the body reads nine input blocks and overwrites two output blocks whole, so
  after the body each output's staging buffer is ONE piece — the body's stored value as a function
  of the nine input blocks — and each input's buffer still holds its block. From these the
  pipeline library concludes the run: every weakly fair execution terminates without a fault,
  each output array is its blocks written back, and every other array is as the region found it.
  Stated at any float instance.
-/
import proofs.«104384_j21534966022556_1_alg».proof.Proof.Gen.KernelIdeal.Launch
import proofs.«104384_j21534966022556_1_alg».proof.Proof.Gen.KernelIdeal.Skeleton
import proofs.«104384_j21534966022556_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host lines
    (four concatenations and a reshape). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is its host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host lines write `main_v0` … `main_v4` and nothing else. -/
theorem hostOps0_writes : (hostOps0 : List (HloOp τ sig (Elt F))).Forall fun op =>
    op.writes ⊆ (([main_v0, main_v1, main_v2, main_v3, main_v4] : List (Ref sig .tc)).map (Proc.devRef (τ := τ) .tc)).toFinset := by
  simp only [List.Forall, StableHlo.nary_writes, StableHlo.reshape_writes, Finset.singleton_subset_iff, List.mem_toFinset, List.mem_map]
  exact ⟨⟨main_v0, by decide, rfl⟩, ⟨main_v1, by decide, rfl⟩, ⟨main_v2, by decide, rfl⟩, ⟨main_v3, by decide, rfl⟩, ⟨main_v4, by decide, rfl⟩⟩

/-- A buffer the host lines do not write is found by the region as launched. -/
theorem V_kept (c : Dev nD) (b : Ref sig .tc) (hb : b ∉ ([main_v0, main_v1, main_v2, main_v3, main_v4] : List (Ref sig .tc))) :
    V m c b = m ((c : Thread nD τ).loc b) :=
  StableHlo.after_of_writes_sub hostOps0 (fun b => m (c, b)) hostOps0_writes hb

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the entry array at every grid point, whether the
    pipeline fetched it there or kept it from the point before (a constant block index). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the entry array at every grid point, whether the
    pipeline fetched it there or kept it from the point before (a constant block index). -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the entry array at every grid point, whether the
    pipeline fetched it there or kept it from the point before (a constant block index). -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the entry array at every grid point, whether the
    pipeline fetched it there or kept it from the point before (a constant block index). -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block of the entry array at every grid point, whether the
    pipeline fetched it there or kept it from the point before (a constant block index). -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block of the entry array at every grid point, whether the
    pipeline fetched it there or kept it from the point before (a constant block index). -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block of the entry array at every grid point, whether the
    pipeline fetched it there or kept it from the point before (a constant block index). -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block of the entry array at every grid point, whether the
    pipeline fetched it there or kept it from the point before (a constant block index). -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block of the entry array at every grid point, whether the
    pipeline fetched it there or kept it from the point before (a constant block index). -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- In a final state with the pipeline's arrays at what the proof data computes and every other buffer as the
    region found it, the 25 argument arrays are as launched: the five streamed inputs are input windows'
    arrays, the twenty weight and bias arrays bypass the region, and no host line writes any of them. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats 0 c).arrAt_in 0 rfl _).trans ((hA c 0).trans (V_kept m c main_arg0 (by decide)))),
      ((h c).1 1).trans (((dats 0 c).arrAt_in 1 rfl _).trans ((hA c 1).trans (V_kept m c main_arg1 (by decide)))),
      ((h c).1 2).trans (((dats 0 c).arrAt_in 2 rfl _).trans ((hA c 2).trans (V_kept m c main_arg2 (by decide)))),
      ((h c).1 3).trans (((dats 0 c).arrAt_in 3 rfl _).trans ((hA c 3).trans (V_kept m c main_arg3 (by decide)))),
      ((h c).1 4).trans (((dats 0 c).arrAt_in 4 rfl _).trans ((hA c 4).trans (V_kept m c main_arg4 (by decide)))),
      ((h c).2 main_arg5 (Pipeline.mem_restRefs_of main_arg5 (by decide) (by decide))).trans (V_kept m c main_arg5 (by decide)),
      ((h c).2 main_arg6 (Pipeline.mem_restRefs_of main_arg6 (by decide) (by decide))).trans (V_kept m c main_arg6 (by decide)),
      ((h c).2 main_arg7 (Pipeline.mem_restRefs_of main_arg7 (by decide) (by decide))).trans (V_kept m c main_arg7 (by decide)),
      ((h c).2 main_arg8 (Pipeline.mem_restRefs_of main_arg8 (by decide) (by decide))).trans (V_kept m c main_arg8 (by decide)),
      ((h c).2 main_arg9 (Pipeline.mem_restRefs_of main_arg9 (by decide) (by decide))).trans (V_kept m c main_arg9 (by decide)),
      ((h c).2 main_arg10 (Pipeline.mem_restRefs_of main_arg10 (by decide) (by decide))).trans (V_kept m c main_arg10 (by decide)),
      ((h c).2 main_arg11 (Pipeline.mem_restRefs_of main_arg11 (by decide) (by decide))).trans (V_kept m c main_arg11 (by decide)),
      ((h c).2 main_arg12 (Pipeline.mem_restRefs_of main_arg12 (by decide) (by decide))).trans (V_kept m c main_arg12 (by decide)),
      ((h c).2 main_arg13 (Pipeline.mem_restRefs_of main_arg13 (by decide) (by decide))).trans (V_kept m c main_arg13 (by decide)),
      ((h c).2 main_arg14 (Pipeline.mem_restRefs_of main_arg14 (by decide) (by decide))).trans (V_kept m c main_arg14 (by decide)),
      ((h c).2 main_arg15 (Pipeline.mem_restRefs_of main_arg15 (by decide) (by decide))).trans (V_kept m c main_arg15 (by decide)),
      ((h c).2 main_arg16 (Pipeline.mem_restRefs_of main_arg16 (by decide) (by decide))).trans (V_kept m c main_arg16 (by decide)),
      ((h c).2 main_arg17 (Pipeline.mem_restRefs_of main_arg17 (by decide) (by decide))).trans (V_kept m c main_arg17 (by decide)),
      ((h c).2 main_arg18 (Pipeline.mem_restRefs_of main_arg18 (by decide) (by decide))).trans (V_kept m c main_arg18 (by decide)),
      ((h c).2 main_arg19 (Pipeline.mem_restRefs_of main_arg19 (by decide) (by decide))).trans (V_kept m c main_arg19 (by decide)),
      ((h c).2 main_arg20 (Pipeline.mem_restRefs_of main_arg20 (by decide) (by decide))).trans (V_kept m c main_arg20 (by decide)),
      ((h c).2 main_arg21 (Pipeline.mem_restRefs_of main_arg21 (by decide) (by decide))).trans (V_kept m c main_arg21 (by decide)),
      ((h c).2 main_arg22 (Pipeline.mem_restRefs_of main_arg22 (by decide) (by decide))).trans (V_kept m c main_arg22 (by decide)),
      ((h c).2 main_arg23 (Pipeline.mem_restRefs_of main_arg23 (by decide) (by decide))).trans (V_kept m c main_arg23 (by decide)),
      ((h c).2 main_arg24 (Pipeline.mem_restRefs_of main_arg24 (by decide) (by decide))).trans (V_kept m c main_arg24 (by decide))⟩

/-- The frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => kept_args m dats hA r h c) h

/-! ## The body's accesses: every load and store is of a whole staging buffer -/

abbrev r_x : Rect S512x256 := Rect.unit (s := S512x256) ![0, 0] S512x256.size inb_S512x256_S512x256_0_0
abbrev r_h : Rect S512x512 := Rect.unit (s := S512x512) ![0, 0] S512x512.size inb_S512x512_S512x512_0_0
abbrev r_U : Rect S256x2560 := Rect.unit (s := S256x2560) ![0, 0] S256x2560.size inb_S256x2560_S256x2560_0_0
abbrev r_W : Rect S512x2560 := Rect.unit (s := S512x2560) ![0, 0] S512x2560.size inb_S512x2560_S512x2560_0_0
abbrev r_b : Rect S1x2560 := Rect.unit (s := S1x2560) ![0, 0] S1x2560.size inb_S1x2560_S1x2560_0_0

/-! ## What the body leaves in each output window's buffer -/

/-- The new cell state's block: `i·c̃ + f_t·c_t + f_s·c_s` of the nine input blocks, stored whole. -/
def cellBlk (x0 : Vec F S512x256 .f32) (x1 : Vec F S512x512 .f32) (x2 : Vec F S512x512 .f32) (x3 : Vec F S512x512 .f32) (x4 : Vec F S512x512 .f32) (x5 : Vec F S256x2560 .f32) (x6 : Vec F S512x2560 .f32) (x7 : Vec F S512x2560 .f32) (x8 : Vec F S1x2560 .f32) : FVec F S512x512 .f32 :=
  k0_pay1 (k0_pay4 (View.ld x0 r_x) (View.ld x1 r_h) (View.ld x2 r_h) (View.ld x5 r_U) (View.ld x6 r_W) (View.ld x7 r_W) (View.ld x8 r_b)) (k0_pay6 (View.ld x0 r_x) (View.ld x1 r_h) (View.ld x2 r_h) (View.ld x5 r_U) (View.ld x6 r_W) (View.ld x7 r_W) (View.ld x8 r_b) (View.ld x3 r_h)) (View.ld x4 r_h)

/-- The new hidden state's block: `o · tanh` of the new cell state, stored whole. -/
def hidBlk (x0 : Vec F S512x256 .f32) (x1 : Vec F S512x512 .f32) (x2 : Vec F S512x512 .f32) (x3 : Vec F S512x512 .f32) (x4 : Vec F S512x512 .f32) (x5 : Vec F S256x2560 .f32) (x6 : Vec F S512x2560 .f32) (x7 : Vec F S512x2560 .f32) (x8 : Vec F S1x2560 .f32) : FVec F S512x512 .f32 :=
  k0_pay2 (k0_pay4 (View.ld x0 r_x) (View.ld x1 r_h) (View.ld x2 r_h) (View.ld x5 r_U) (View.ld x6 r_W) (View.ld x7 r_W) (View.ld x8 r_b)) (k0_pay5 (View.ld x0 r_x) (View.ld x1 r_h) (View.ld x2 r_h) (View.ld x5 r_U) (View.ld x6 r_W) (View.ld x7 r_W) (View.ld x8 r_b)) (k0_pay6 (View.ld x0 r_x) (View.ld x1 r_h) (View.ld x2 r_h) (View.ld x5 r_U) (View.ld x6 r_W) (View.ld x7 r_W) (View.ld x8 r_b) (View.ld x3 r_h)) (View.ld x4 r_h)

/-- Window 9's staging buffer after the body: its one store as one piece. -/
def out_9 (x0 : Vec F S512x256 .f32) (x1 : Vec F S512x512 .f32) (x2 : Vec F S512x512 .f32) (x3 : Vec F S512x512 .f32) (x4 : Vec F S512x512 .f32) (x5 : Vec F S256x2560 .f32) (x6 : Vec F S512x2560 .f32) (x7 : Vec F S512x2560 .f32) (x8 : Vec F S1x2560 .f32) : Vec F S512x512 .f32 :=
  View.canon [⟨r_h, hidBlk x0 x1 x2 x3 x4 x5 x6 x7 x8⟩]

/-- Window 10's staging buffer after the body: its one store as one piece. -/
def out_10 (x0 : Vec F S512x256 .f32) (x1 : Vec F S512x512 .f32) (x2 : Vec F S512x512 .f32) (x3 : Vec F S512x512 .f32) (x4 : Vec F S512x512 .f32) (x5 : Vec F S256x2560 .f32) (x6 : Vec F S512x2560 .f32) (x7 : Vec F S512x2560 .f32) (x8 : Vec F S1x2560 .f32) : Vec F S512x512 .f32 :=
  View.canon [⟨r_h, cellBlk x0 x1 x2 x3 x4 x5 x6 x7 x8⟩]

/-- One whole-buffer store covers the buffer. -/
theorem cover_h (p0 : Vec F S512x512 .f32) (y : S512x512.Idx) :
    ∃ pc ∈ ([⟨r_h, p0⟩] : List (View.Piece (Elt F) S512x512 .f32)), y ∈ pc.1.set :=
  View.cover_of_tiled [⟨r_h, p0⟩] S512x512.size (by rfl) y

/-! ## The body's triple -/

set_option maxHeartbeats 1000000 in
/-- The body on whole staging memrefs, the inputs' at contents `xW` and the outputs' at anything, runs to a
    state holding the inputs' as they were and the outputs' at `out_9`, `out_10` of the inputs'. -/
theorem sound_kernel (c : Dev nD) (E : Set ℕ) (i : grid0.Coords) (arg1 : Memref sig .tc .vmem S512x256 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x2560 .f32) (harg6 : arg6.IsWhole) (arg7 : Memref sig .tc .vmem S512x2560 .f32) (harg7 : arg7.IsWhole) (arg8 : Memref sig .tc .vmem S512x2560 .f32) (harg8 : arg8.IsWhole) (arg9 : Memref sig .tc .vmem S1x2560 .f32) (harg9 : arg9.IsWhole) (arg10 : Memref sig .tc .vmem S512x512 .f32) (harg10 : arg10.IsWhole) (arg11 : Memref sig .tc .vmem S512x512 .f32) (harg11 : arg11.IsWhole)
    (x0 : Vec F S512x256 .f32) (x1 : Vec F S512x512 .f32) (x2 : Vec F S512x512 .f32) (x3 : Vec F S512x512 .f32) (x4 : Vec F S512x512 .f32) (x5 : Vec F S256x2560 .f32) (x6 : Vec F S512x2560 .f32) (x7 : Vec F S512x2560 .f32) (x8 : Vec F S1x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out_9 x0 x1 x2 x3 x4 x5 x6 x7 x8) ∗ owns (c : Thread nD τ) arg11 fullShare (out_10 x0 x1 x2 x3 x4 x5 x6 x7 x8)) -∗ K ⟨⟩))
      ⊢ wp frame (wpE (defs₀ (F := F)) Variants.none c none) E (cc0__st_lstm_kernel i arg1 harg1 arg2 harg2 arg3 harg3 arg4 harg4 arg5 harg5 arg6 harg6 arg7 harg7 arg8 harg8 arg9 harg9 arg10 harg10 arg11 harg11) K := by
  simp only [cc0__st_lstm_kernel_eq_skeleton]; unfold cc0__st_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_h _)
  iexists _; isplitr
  swap; · iexact H10
  ipureintro
  try dsimp only
  exact View.read_writes_eq_canon _ _ _ (cover_h _)

/-! ## The pipeline's proof data -/

/-- The proof data of the pipeline on core `c`: the arrays as the region finds them; after the body at point `t`
    each input's buffer at its block and each output's at its one piece over the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out_9 (iblk m c 0 t) (iblk m c 1 t) (iblk m c 2 t) (iblk m c 3 t) (iblk m c 4 t) (iblk m c 5 t) (iblk m c 6 t) (iblk m c 7 t) (iblk m c 8 t)
    | ⟨10, _⟩ => out_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out_9 (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = out_10 (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so the triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the pipeline holds
    what the proof data computes and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Hand

end
-- ==== Proof.Spec.lean ====
/-
  The fused cell step as plain mathematics on the extended reals.

  One row of the batch at a time: from the row's input `xr` (256 entries) and its two hidden states `tr`, `sr`
  (512 entries each), the 2560 pre-activations are
      g j = Σ_a xr a · U (a, j) + Σ_a tr a · Wt (a, j) + Σ_a sr a · Ws (a, j) + b j ,
  five gates of 512 columns side by side: input, spatial forget, temporal forget, output, candidate. With σ the
  logistic function the new cell state and hidden state of the row are
      c q = σ (g q) · tanh (g (q + 2048)) + σ (g (q + 1024)) · ct q + σ (g (q + 512)) · cs q ,
      h q = σ (g (q + 1536)) · tanh (c q) .
  The whole arrays apply this to every row of the batch.
-/
import Idealize.ShloMosaic.Lib.ValueIdx
import Idealize.ShloMosaic.PureOps.Ideal

noncomputable section

namespace Cert.Spec

open Idealize.ShloMosaic Idealize.ShloMosaic.ValueIdx

/-- Column `q` of gate number 0 … 4 among the 2560 pre-activation columns. -/
abbrev col0 (q : Fin 512) : Fin 2560 := ⟨q.val, by omega⟩
abbrev col1 (q : Fin 512) : Fin 2560 := ⟨q.val + 512, by omega⟩
abbrev col2 (q : Fin 512) : Fin 2560 := ⟨q.val + 1024, by omega⟩
abbrev col3 (q : Fin 512) : Fin 2560 := ⟨q.val + 1536, by omega⟩
abbrev col4 (q : Fin 512) : Fin 2560 := ⟨q.val + 2048, by omega⟩

/-- Pre-activation `j` of one row: three inner products and the bias, added left to right. -/
def gate (xr : Fin 256 → EReal) (tr sr : Fin 512 → EReal)
    (U : (⟨2, ![256, 2560]⟩ : Shape).Idx → EReal) (Wt Ws : (⟨2, ![512, 2560]⟩ : Shape).Idx → EReal)
    (b : (⟨1, ![2560]⟩ : Shape).Idx → EReal) (j : Fin 2560) : EReal :=
  (∑ a : Fin 256, xr a * U (ix2 a j)) + (∑ a : Fin 512, tr a * Wt (ix2 a j)) + (∑ a : Fin 512, sr a * Ws (ix2 a j)) + b (ix1 j)

/-- The row's new cell state at column `q`. -/
def cellRow (xr : Fin 256 → EReal) (tr sr ctr csr : Fin 512 → EReal)
    (U : (⟨2, ![256, 2560]⟩ : Shape).Idx → EReal) (Wt Ws : (⟨2, ![512, 2560]⟩ : Shape).Idx → EReal)
    (b : (⟨1, ![2560]⟩ : Shape).Idx → EReal) (q : Fin 512) : EReal :=
  Ideal.logistic (gate xr tr sr U Wt Ws b (col0 q)) * Ideal.tanh (gate xr tr sr U Wt Ws b (col4 q))
    + Ideal.logistic (gate xr tr sr U Wt Ws b (col2 q)) * ctr q
    + Ideal.logistic (gate xr tr sr U Wt Ws b (col1 q)) * csr q

/-- The row's new hidden state at column `q`. -/
def hidRow (xr : Fin 256 → EReal) (tr sr ctr csr : Fin 512 → EReal)
    (U : (⟨2, ![256, 2560]⟩ : Shape).Idx → EReal) (Wt Ws : (⟨2, ![512, 2560]⟩ : Shape).Idx → EReal)
    (b : (⟨1, ![2560]⟩ : Shape).Idx → EReal) (q : Fin 512) : EReal :=
  Ideal.logistic (gate xr tr sr U Wt Ws b (col3 q)) * Ideal.tanh (cellRow xr tr sr ctr csr U Wt Ws b q)

/-- The new cell states of a batch of `M` rows. -/
def cellArr {M : Nat} (x : (⟨2, ![M, 256]⟩ : Shape).Idx → EReal) (ht hs ct cs : (⟨2, ![M, 512]⟩ : Shape).Idx → EReal)
    (U : (⟨2, ![256, 2560]⟩ : Shape).Idx → EReal) (Wt Ws : (⟨2, ![512, 2560]⟩ : Shape).Idx → EReal)
    (b : (⟨1, ![2560]⟩ : Shape).Idx → EReal) : (⟨2, ![M, 512]⟩ : Shape).Idx → EReal :=
  fun i => cellRow (fun a => x (ix2 (i 0) a)) (fun a => ht (ix2 (i 0) a)) (fun a => hs (ix2 (i 0) a))
    (fun k => ct (ix2 (i 0) k)) (fun k => cs (ix2 (i 0) k)) U Wt Ws b (i 1)

/-- The new hidden states of a batch of `M` rows. -/
def hidArr {M : Nat} (x : (⟨2, ![M, 256]⟩ : Shape).Idx → EReal) (ht hs ct cs : (⟨2, ![M, 512]⟩ : Shape).Idx → EReal)
    (U : (⟨2, ![256, 2560]⟩ : Shape).Idx → EReal) (Wt Ws : (⟨2, ![512, 2560]⟩ : Shape).Idx → EReal)
    (b : (⟨1, ![2560]⟩ : Shape).Idx → EReal) : (⟨2, ![M, 512]⟩ : Shape).Idx → EReal :=
  fun i => hidRow (fun a => x (ix2 (i 0) a)) (fun a => ht (ix2 (i 0) a)) (fun a => hs (ix2 (i 0) a))
    (fun k => ct (ix2 (i 0) k)) (fun k => cs (ix2 (i 0) k)) U Wt Ws b (i 1)

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelRow.lean ====
/-
  The body's two stored values, read at an entry (row `r`, column `q` of the 512 × 512 block), are the
  row's new cell state and hidden state of Spec: the three matrix products into zero accumulators are inner
  products of row `r` with column `j` of the weights, the change of float format is the identity, the bias row
  is broadcast down the rows, the five gates are column slices at offsets 0, 512, 1024, 1536, 2048.
-/
import proofs.«104384_j21534966022556_1_alg».proof.Proof.Gen.KernelIdeal.Skeleton
import proofs.«104384_j21534966022556_1_alg».proof.Proof.Spec
import proofs.«104384_j21534966022556_1_alg».proof.Proof.LibDot2
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx

/-! ## The two contraction records, axis by axis -/

theorem lhs_x_0 (i : S512x2560.Idx) (q : dot_S512x256_S256x2560_S512x2560_1_0_0_1_n_n.contr.Idx) :
    (dot_S512x256_S256x2560_S512x2560_1_0_0_1_n_n.lhsIdx i q 0).val = (i 0).val := by
  unfold DotDims.lhsIdx
  rw [dif_neg (show ¬(0 : Fin S512x256.rank) ∈ dot_S512x256_S256x2560_S512x2560_1_0_0_1_n_n.lhsBatch by decide), dif_pos (show (0 : Fin S512x256.rank) ∈ dot_S512x256_S256x2560_S512x2560_1_0_0_1_n_n.lhsNonContracting by decide)]
  rfl
theorem lhs_x_1 (i : S512x2560.Idx) (q : dot_S512x256_S256x2560_S512x2560_1_0_0_1_n_n.contr.Idx) :
    (dot_S512x256_S256x2560_S512x2560_1_0_0_1_n_n.lhsIdx i q 1).val = (q ⟨0, by decide⟩).val :=
  dot_S512x256_S256x2560_S512x2560_1_0_0_1_n_n.lhsIdx_val_of_single rfl i q
theorem rhs_x_0 (i : S512x2560.Idx) (q : dot_S512x256_S256x2560_S512x2560_1_0_0_1_n_n.contr.Idx) :
    (dot_S512x256_S256x2560_S512x2560_1_0_0_1_n_n.rhsIdx i q 0).val = (q ⟨0, by decide⟩).val :=
  dot_S512x256_S256x2560_S512x2560_1_0_0_1_n_n.rhsIdx_val_of_single rfl i q
theorem rhs_x_1 (i : S512x2560.Idx) (q : dot_S512x256_S256x2560_S512x2560_1_0_0_1_n_n.contr.Idx) :
    (dot_S512x256_S256x2560_S512x2560_1_0_0_1_n_n.rhsIdx i q 1).val = (i 1).val := by
  unfold DotDims.rhsIdx
  rw [dif_neg (show ¬(1 : Fin S256x2560.rank) ∈ dot_S512x256_S256x2560_S512x2560_1_0_0_1_n_n.rhsBatch by decide), dif_pos (show (1 : Fin S256x2560.rank) ∈ dot_S512x256_S256x2560_S512x2560_1_0_0_1_n_n.rhsNonContracting by decide)]
  rfl

theorem lhs_h_0 (i : S512x2560.Idx) (q : dot_S512x512_S512x2560_S512x2560_1_0_0_1_n_n.contr.Idx) :
    (dot_S512x512_S512x2560_S512x2560_1_0_0_1_n_n.lhsIdx i q 0).val = (i 0).val := by
  unfold DotDims.lhsIdx
  rw [dif_neg (show ¬(0 : Fin S512x512.rank) ∈ dot_S512x512_S512x2560_S512x2560_1_0_0_1_n_n.lhsBatch by decide), dif_pos (show (0 : Fin S512x512.rank) ∈ dot_S512x512_S512x2560_S512x2560_1_0_0_1_n_n.lhsNonContracting by decide)]
  rfl
theorem lhs_h_1 (i : S512x2560.Idx) (q : dot_S512x512_S512x2560_S512x2560_1_0_0_1_n_n.contr.Idx) :
    (dot_S512x512_S512x2560_S512x2560_1_0_0_1_n_n.lhsIdx i q 1).val = (q ⟨0, by decide⟩).val :=
  dot_S512x512_S512x2560_S512x2560_1_0_0_1_n_n.lhsIdx_val_of_single rfl i q
theorem rhs_h_0 (i : S512x2560.Idx) (q : dot_S512x512_S512x2560_S512x2560_1_0_0_1_n_n.contr.Idx) :
    (dot_S512x512_S512x2560_S512x2560_1_0_0_1_n_n.rhsIdx i q 0).val = (q ⟨0, by decide⟩).val :=
  dot_S512x512_S512x2560_S512x2560_1_0_0_1_n_n.rhsIdx_val_of_single rfl i q
theorem rhs_h_1 (i : S512x2560.Idx) (q : dot_S512x512_S512x2560_S512x2560_1_0_0_1_n_n.contr.Idx) :
    (dot_S512x512_S512x2560_S512x2560_1_0_0_1_n_n.rhsIdx i q 1).val = (i 1).val := by
  unfold DotDims.rhsIdx
  rw [dif_neg (show ¬(1 : Fin S512x2560.rank) ∈ dot_S512x512_S512x2560_S512x2560_1_0_0_1_n_n.rhsBatch by decide), dif_pos (show (1 : Fin S512x2560.rank) ∈ dot_S512x512_S512x2560_S512x2560_1_0_0_1_n_n.rhsNonContracting by decide)]
  rfl

/-! ## The three products at an entry -/

/-- The input product into the zero accumulator at `(r, j)`: row `r` of the left operand against column `j` of the right. -/
theorem mm_x (l : FVec Ideal S512x256 .bf16) (w : FVec Ideal S256x2560 .bf16) (r : Fin 512) (j : Fin 2560) :
    matmul dot_S512x256_S256x2560_S512x2560_1_0_0_1_n_n none l w (constant (F := Ideal) S512x2560 .f32 0x00000000#32) (ix2 r j)
      = ∑ a : Fin 256, l (ix2 r a) * w (ix2 a j) :=
  Cert.Lib.Dot2.matmul_zero_ix2 dot_S512x256_S256x2560_S512x2560_1_0_0_1_n_n none rfl rfl lhs_x_0 lhs_x_1 rhs_x_0 rhs_x_1 l w r j

/-- A hidden-state product into the zero accumulator at `(r, j)`. -/
theorem mm_h (l : FVec Ideal S512x512 .bf16) (w : FVec Ideal S512x2560 .bf16) (r : Fin 512) (j : Fin 2560) :
    matmul dot_S512x512_S512x2560_S512x2560_1_0_0_1_n_n none l w (constant (F := Ideal) S512x2560 .f32 0x00000000#32) (ix2 r j)
      = ∑ a : Fin 512, l (ix2 r a) * w (ix2 a j) :=
  Cert.Lib.Dot2.matmul_zero_ix2 dot_S512x512_S512x2560_S512x2560_1_0_0_1_n_n none rfl rfl lhs_h_0 lhs_h_1 rhs_h_0 rhs_h_1 l w r j

/-! ## The pre-activations at an entry -/

/-- The bias row broadcast down the rows, read at `(r, j)`, is the row's entry `j`. -/
theorem bias_at (b : FVec Ideal S1x2560 .f32) (r : Fin 512) (j : Fin 2560) :
    broadcastTo S512x2560 b broadcasts_S1x2560_S512x2560 (ix2 r j) = b (ix2 0 j) :=
  broadcastTo_apply b broadcasts_S1x2560_S512x2560 (ix2 r j) (ix2 0 j) fun a => by
    match a with
    | ⟨0, _⟩ => rfl
    | ⟨1, _⟩ => rfl

/-- The sum of the three products and the bias at `(r, j)` is pre-activation `j` of row `r`. -/
theorem gate_pay (v0 : Vec Ideal S512x256 .f32) (v2 v4 : Vec Ideal S512x512 .f32) (v6 : Vec Ideal S256x2560 .f32)
    (v9 v12 : Vec Ideal S512x2560 .f32) (v20 : Vec Ideal S1x2560 .f32) (r : Fin 512) (j : Fin 2560) :
    k0_pay3 v0 v2 v4 v6 v9 v12 v20 (ix2 r j)
      = Cert.Spec.gate (fun a => v0 (ix2 r a)) (fun a => v2 (ix2 r a)) (fun a => v4 (ix2 r a)) v6 v9 v12
          (fun j => v20 (ix2 0 (j 0))) j := by
  unfold k0_pay3
  rw [shapeCast_self, shapeCast_self, shapeCast_self, shapeCast_self]
  rw [addf_apply, addf_apply, addf_apply, mm_x, mm_h, mm_h, bias_at]
  rfl

/-! ## The five gates are column slices of the pre-activations -/

theorem slice0 (g : FVec Ideal S512x2560 .f32) (r q : Fin 512) :
    extractStridedSlice S512x512 ![0, 0] g slices_S512x2560_o0_0_S512x512 (ix2 r q) = g (ix2 r (Cert.Spec.col0 q)) :=
  extractStridedSlice_apply ![0, 0] g slices_S512x2560_o0_0_S512x512 (ix2 r q) (ix2 r (Cert.Spec.col0 q)) fun a => by
    match a with
    | ⟨0, _⟩ => show r.val = 0 + r.val; omega
    | ⟨1, _⟩ => show q.val = 0 + q.val; omega

theorem slice1 (g : FVec Ideal S512x2560 .f32) (r q : Fin 512) :
    extractStridedSlice S512x512 ![0, 512] g slices_S512x2560_o0_512_S512x512 (ix2 r q) = g (ix2 r (Cert.Spec.col1 q)) :=
  extractStridedSlice_apply ![0, 512] g slices_S512x2560_o0_512_S512x512 (ix2 r q) (ix2 r (Cert.Spec.col1 q)) fun a => by
    match a with
    | ⟨0, _⟩ => show r.val = 0 + r.val; omega
    | ⟨1, _⟩ => show q.val + 512 = 512 + q.val; omega

theorem slice2 (g : FVec Ideal S512x2560 .f32) (r q : Fin 512) :
    extractStridedSlice S512x512 ![0, 1024] g slices_S512x2560_o0_1024_S512x512 (ix2 r q) = g (ix2 r (Cert.Spec.col2 q)) :=
  extractStridedSlice_apply ![0, 1024] g slices_S512x2560_o0_1024_S512x512 (ix2 r q) (ix2 r (Cert.Spec.col2 q)) fun a => by
    match a with
    | ⟨0, _⟩ => show r.val = 0 + r.val; omega
    | ⟨1, _⟩ => show q.val + 1024 = 1024 + q.val; omega

theorem slice3 (g : FVec Ideal S512x2560 .f32) (r q : Fin 512) :
    extractStridedSlice S512x512 ![0, 1536] g slices_S512x2560_o0_1536_S512x512 (ix2 r q) = g (ix2 r (Cert.Spec.col3 q)) :=
  extractStridedSlice_apply ![0, 1536] g slices_S512x2560_o0_1536_S512x512 (ix2 r q) (ix2 r (Cert.Spec.col3 q)) fun a => by
    match a with
    | ⟨0, _⟩ => show r.val = 0 + r.val; omega
    | ⟨1, _⟩ => show q.val + 1536 = 1536 + q.val; omega

theorem slice4 (g : FVec Ideal S512x2560 .f32) (r q : Fin 512) :
    extractStridedSlice S512x512 ![0, 2048] g slices_S512x2560_o0_2048_S512x512 (ix2 r q) = g (ix2 r (Cert.Spec.col4 q)) :=
  extractStridedSlice_apply ![0, 2048] g slices_S512x2560_o0_2048_S512x512 (ix2 r q) (ix2 r (Cert.Spec.col4 q)) fun a => by
    match a with
    | ⟨0, _⟩ => show r.val = 0 + r.val; omega
    | ⟨1, _⟩ => show q.val + 2048 = 2048 + q.val; omega

/-- The stored cell-state block at `(r, q)`. -/
theorem cell_pay (v0 : Vec Ideal S512x256 .f32) (v2 v4 : Vec Ideal S512x512 .f32) (v6 : Vec Ideal S256x2560 .f32)
    (v9 v12 : Vec Ideal S512x2560 .f32) (v20 : Vec Ideal S1x2560 .f32) (v35 v38 : Vec Ideal S512x512 .f32) (r q : Fin 512) :
    k0_pay1 (k0_pay4 v0 v2 v4 v6 v9 v12 v20) (k0_pay6 v0 v2 v4 v6 v9 v12 v20 v35) v38 (ix2 r q)
      = Cert.Spec.cellRow (fun a => v0 (ix2 r a)) (fun a => v2 (ix2 r a)) (fun a => v4 (ix2 r a))
          (fun k => v35 (ix2 r k)) (fun k => v38 (ix2 r k)) v6 v9 v12 (fun j => v20 (ix2 0 (j 0))) q := by
  unfold k0_pay1 k0_pay4 k0_pay6 Cert.Spec.cellRow
  rw [← gate_pay, ← gate_pay, ← gate_pay, ← gate_pay, ← slice0 (k0_pay3 v0 v2 v4 v6 v9 v12 v20) r q,
    ← slice1 (k0_pay3 v0 v2 v4 v6 v9 v12 v20) r q, ← slice2 (k0_pay3 v0 v2 v4 v6 v9 v12 v20) r q,
    ← slice4 (k0_pay3 v0 v2 v4 v6 v9 v12 v20) r q]
  rfl

/-- The stored hidden-state block at `(r, q)`. -/
theorem hid_pay (v0 : Vec Ideal S512x256 .f32) (v2 v4 : Vec Ideal S512x512 .f32) (v6 : Vec Ideal S256x2560 .f32)
    (v9 v12 : Vec Ideal S512x2560 .f32) (v20 : Vec Ideal S1x2560 .f32) (v35 v38 : Vec Ideal S512x512 .f32) (r q : Fin 512) :
    k0_pay2 (k0_pay4 v0 v2 v4 v6 v9 v12 v20) (k0_pay5 v0 v2 v4 v6 v9 v12 v20) (k0_pay6 v0 v2 v4 v6 v9 v12 v20 v35) v38 (ix2 r q)
      = Cert.Spec.hidRow (fun a => v0 (ix2 r a)) (fun a => v2 (ix2 r a)) (fun a => v4 (ix2 r a))
          (fun k => v35 (ix2 r k)) (fun k => v38 (ix2 r k)) v6 v9 v12 (fun j => v20 (ix2 0 (j 0))) q := by
  unfold k0_pay2 Cert.Spec.hidRow
  rw [← cell_pay]
  unfold k0_pay5
  rw [← gate_pay, ← slice3 (k0_pay3 v0 v2 v4 v6 v9 v12 v20) r q]
  rfl

end Cert.KernelIdeal.Row

end
-- ==== Proof.KernelValue.lean ====
/-
  From blocks to arrays. Grid point `t` of the 16 handles batch rows 512·t … 512·t + 511: the five streamed
  inputs' blocks are those rows of their arrays, the three weight blocks and the bias block are the whole
  concatenated arrays (the same at every point), and the two output blocks are those rows of the results. So
  what point `t` writes back is block `t` of ONE whole-array function of the argument arrays — Spec's new
  hidden state and new cell state over the column-wise concatenated weights — and, the 16 blocks covering the
  8192 rows, each result array ends holding that function.
-/
import proofs.«104384_j21534966022556_1_alg».proof.Proof.IdealFrame
import proofs.«104384_j21534966022556_1_alg».proof.Proof.KernelRow
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The concatenated weights and biases the region finds -/

/-- The input-to-gates weights, the five gates' matrices side by side. -/
def wU (c : Dev nD) : S256x2560.Idx → EReal :=
  concatenate S256x2560 1 [⟨S256x512, (m ((c : Thread nD τ).loc main_arg5))⟩, ⟨S256x512, (m ((c : Thread nD τ).loc main_arg9))⟩, ⟨S256x512, (m ((c : Thread nD τ).loc main_arg13))⟩, ⟨S256x512, (m ((c : Thread nD τ).loc main_arg17))⟩, ⟨S256x512, (m ((c : Thread nD τ).loc main_arg21))⟩] Facts₀.concatenates_S256x512_S256x512_S256x512_S256x512_S256x512_S256x2560_d1
/-- The temporal-state-to-gates weights. -/
def wT (c : Dev nD) : S512x2560.Idx → EReal :=
  concatenate S512x2560 1 [⟨S512x512, (m ((c : Thread nD τ).loc main_arg6))⟩, ⟨S512x512, (m ((c : Thread nD τ).loc main_arg10))⟩, ⟨S512x512, (m ((c : Thread nD τ).loc main_arg14))⟩, ⟨S512x512, (m ((c : Thread nD τ).loc main_arg18))⟩, ⟨S512x512, (m ((c : Thread nD τ).loc main_arg22))⟩] Facts₀.concatenates_S512x512_S512x512_S512x512_S512x512_S512x512_S512x2560_d1
/-- The spatial-state-to-gates weights. -/
def wS (c : Dev nD) : S512x2560.Idx → EReal :=
  concatenate S512x2560 1 [⟨S512x512, (m ((c : Thread nD τ).loc main_arg7))⟩, ⟨S512x512, (m ((c : Thread nD τ).loc main_arg11))⟩, ⟨S512x512, (m ((c : Thread nD τ).loc main_arg15))⟩, ⟨S512x512, (m ((c : Thread nD τ).loc main_arg19))⟩, ⟨S512x512, (m ((c : Thread nD τ).loc main_arg23))⟩] Facts₀.concatenates_S512x512_S512x512_S512x512_S512x512_S512x512_S512x2560_d1
/-- The five biases end to end. -/
def bias (c : Dev nD) : S2560.Idx → EReal :=
  concatenate S2560 0 [⟨S512, (m ((c : Thread nD τ).loc main_arg8))⟩, ⟨S512, (m ((c : Thread nD τ).loc main_arg12))⟩, ⟨S512, (m ((c : Thread nD τ).loc main_arg16))⟩, ⟨S512, (m ((c : Thread nD τ).loc main_arg20))⟩, ⟨S512, (m ((c : Thread nD τ).loc main_arg24))⟩] Facts₀.concatenates_S512_S512_S512_S512_S512_S2560_d0

theorem V_v0 (c : Dev nD) : (V m c main_v0 : S256x2560.Idx → EReal) = wU m c := by
  dsimp only [V, hostOps0]; after_results; rfl
theorem V_v1 (c : Dev nD) : (V m c main_v1 : S512x2560.Idx → EReal) = wT m c := by
  dsimp only [V, hostOps0]; after_results; rfl
theorem V_v2 (c : Dev nD) : (V m c main_v2 : S512x2560.Idx → EReal) = wS m c := by
  dsimp only [V, hostOps0]; after_results; rfl
theorem V_v4 (c : Dev nD) : (V m c main_v4 : S1x2560.Idx → EReal) = shapeCast S1x2560 (bias m c) Facts₀.shapeCasts_S2560_S1x2560 := by
  dsimp only [V, hostOps0]; after_results; rfl

/-! ## The results as whole-array functions -/

/-- The new hidden state of every batch row. -/
def hidG (c : Dev nD) : S8192x512.Idx → EReal :=
  Cert.Spec.hidArr (m ((c : Thread nD τ).loc main_arg0)) (m ((c : Thread nD τ).loc main_arg1)) (m ((c : Thread nD τ).loc main_arg2)) (m ((c : Thread nD τ).loc main_arg3)) (m ((c : Thread nD τ).loc main_arg4)) (wU m c) (wT m c) (wS m c) (bias m c)
/-- The new cell state of every batch row. -/
def cellG (c : Dev nD) : S8192x512.Idx → EReal :=
  Cert.Spec.cellArr (m ((c : Thread nD τ).loc main_arg0)) (m ((c : Thread nD τ).loc main_arg1)) (m ((c : Thread nD τ).loc main_arg2)) (m ((c : Thread nD τ).loc main_arg3)) (m ((c : Thread nD τ).loc main_arg4)) (wU m c) (wT m c) (wS m c) (bias m c)

/-! ## The windows' index maps, decided over the grid -/

theorem hz : (![0, 0] : Fin 2 → Nat) = fun _ => 0 := funext fun a => by fin_cases a <;> rfl

/-- The streamed windows (five inputs, two outputs) are at block row `t`, block column 0; the weight and bias
    windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem t_lt (t : Fin cfg0.N) : t.val < 16 := by
  exact lt_of_lt_of_eq t.isLt N_0

/-- The batch row that row `r` of point `t`'s blocks is. -/
def rowOf (t : Fin cfg0.N) (r : Fin 512) : Fin 8192 := ⟨512 * t.val + r.val, by have := t_lt t; omega⟩

/-! ## The input blocks, read -/

theorem blk0 (c : Dev nD) (t : Fin cfg0.N) (r : Fin 512) (a : Fin 256) :
    iblk m c 0 t (ix2 r a) = (m ((c : Thread nD τ).loc main_arg0)) (ix2 (rowOf t r) a) := by
  show V m c main_arg0 (((cfg0.win 0).blk t).view.emb (ix2 r a)) = _
  rw [V_kept m c main_arg0 (by decide)]
  congr 1
  obtain ⟨⟨e0, e1⟩, -⟩ := idx_facts t
  funext d; apply Fin.ext
  match d with
  | ⟨0, _⟩ => show win0_0.index t (0 : Fin 2) * 512 + 1 * r.val = 512 * t.val + r.val; omega
  | ⟨1, _⟩ => show win0_0.index t (1 : Fin 2) * 256 + 1 * a.val = a.val; omega

theorem blk5 (c : Dev nD) (t : Fin cfg0.N) : (iblk m c 5 t : S256x2560.Idx → EReal) = wU m c := by
  rw [← V_v0]
  funext y
  show V m c main_v0 (((cfg0.win 5).blk t).view.emb y) = _
  congr 1
  obtain ⟨-, -, -, -, -, ⟨e0, e1⟩, -⟩ := idx_facts t
  funext d; apply Fin.ext
  match d with
  | ⟨0, _⟩ => show win0_5.index t (0 : Fin 2) * 256 + 1 * (y 0).val = (y 0).val; omega
  | ⟨1, _⟩ => show win0_5.index t (1 : Fin 2) * 2560 + 1 * (y 1).val = (y 1).val; omega

theorem blk1 (c : Dev nD) (t : Fin cfg0.N) (r : Fin 512) (a : Fin 512) :
    iblk m c 1 t (ix2 r a) = (m ((c : Thread nD τ).loc main_arg1)) (ix2 (rowOf t r) a) := by
  show V m c main_arg1 (((cfg0.win 1).blk t).view.emb (ix2 r a)) = _
  rw [V_kept m c main_arg1 (by decide)]
  congr 1
  obtain ⟨-, ⟨e0, e1⟩, -⟩ := idx_facts t
  funext d; apply Fin.ext
  match d with
  | ⟨0, _⟩ => show win0_1.index t (0 : Fin 2) * 512 + 1 * r.val = 512 * t.val + r.val; omega
  | ⟨1, _⟩ => show win0_1.index t (1 : Fin 2) * 512 + 1 * a.val = a.val; omega

theorem blk2 (c : Dev nD) (t : Fin cfg0.N) (r : Fin 512) (a : Fin 512) :
    iblk m c 2 t (ix2 r a) = (m ((c : Thread nD τ).loc main_arg2)) (ix2 (rowOf t r) a) := by
  show V m c main_arg2 (((cfg0.win 2).blk t).view.emb (ix2 r a)) = _
  rw [V_kept m c main_arg2 (by decide)]
  congr 1
  obtain ⟨-, -, ⟨e0, e1⟩, -⟩ := idx_facts t
  funext d; apply Fin.ext
  match d with
  | ⟨0, _⟩ => show win0_2.index t (0 : Fin 2) * 512 + 1 * r.val = 512 * t.val + r.val; omega
  | ⟨1, _⟩ => show win0_2.index t (1 : Fin 2) * 512 + 1 * a.val = a.val; omega

theorem blk3 (c : Dev nD) (t : Fin cfg0.N) (r : Fin 512) (a : Fin 512) :
    iblk m c 3 t (ix2 r a) = (m ((c : Thread nD τ).loc main_arg3)) (ix2 (rowOf t r) a) := by
  show V m c main_arg3 (((cfg0.win 3).blk t).view.emb (ix2 r a)) = _
  rw [V_kept m c main_arg3 (by decide)]
  congr 1
  obtain ⟨-, -, -, ⟨e0, e1⟩, -⟩ := idx_facts t
  funext d; apply Fin.ext
  match d with
  | ⟨0, _⟩ => show win0_3.index t (0 : Fin 2) * 512 + 1 * r.val = 512 * t.val + r.val; omega
  | ⟨1, _⟩ => show win0_3.index t (1 : Fin 2) * 512 + 1 * a.val = a.val; omega

theorem blk4 (c : Dev nD) (t : Fin cfg0.N) (r : Fin 512) (a : Fin 512) :
    iblk m c 4 t (ix2 r a) = (m ((c : Thread nD τ).loc main_arg4)) (ix2 (rowOf t r) a) := by
  show V m c main_arg4 (((cfg0.win 4).blk t).view.emb (ix2 r a)) = _
  rw [V_kept m c main_arg4 (by decide)]
  congr 1
  obtain ⟨-, -, -, -, ⟨e0, e1⟩, -⟩ := idx_facts t
  funext d; apply Fin.ext
  match d with
  | ⟨0, _⟩ => show win0_4.index t (0 : Fin 2) * 512 + 1 * r.val = 512 * t.val + r.val; omega
  | ⟨1, _⟩ => show win0_4.index t (1 : Fin 2) * 512 + 1 * a.val = a.val; omega

theorem blk6 (c : Dev nD) (t : Fin cfg0.N) : (iblk m c 6 t : S512x2560.Idx → EReal) = wT m c := by
  rw [← V_v1]
  funext y
  show V m c main_v1 (((cfg0.win 6).blk t).view.emb y) = _
  congr 1
  obtain ⟨-, -, -, -, -, -, ⟨e0, e1⟩, -⟩ := idx_facts t
  funext d; apply Fin.ext
  match d with
  | ⟨0, _⟩ => show win0_6.index t (0 : Fin 2) * 512 + 1 * (y 0).val = (y 0).val; omega
  | ⟨1, _⟩ => show win0_6.index t (1 : Fin 2) * 2560 + 1 * (y 1).val = (y 1).val; omega

theorem blk7 (c : Dev nD) (t : Fin cfg0.N) : (iblk m c 7 t : S512x2560.Idx → EReal) = wS m c := by
  rw [← V_v2]
  funext y
  show V m c main_v2 (((cfg0.win 7).blk t).view.emb y) = _
  congr 1
  obtain ⟨-, -, -, -, -, -, -, ⟨e0, e1⟩, -⟩ := idx_facts t
  funext d; apply Fin.ext
  match d with
  | ⟨0, _⟩ => show win0_7.index t (0 : Fin 2) * 512 + 1 * (y 0).val = (y 0).val; omega
  | ⟨1, _⟩ => show win0_7.index t (1 : Fin 2) * 2560 + 1 * (y 1).val = (y 1).val; omega

/-- The bias block's one row is the five biases end to end. -/
theorem bias8 (c : Dev nD) (t : Fin cfg0.N) :
    (fun j : S2560.Idx => (iblk m c 8 t : S1x2560.Idx → EReal) (ix2 (n0 := 1) (n1 := 2560) 0 (j 0))) = bias m c := by
  funext j
  show V m c main_v4 (((cfg0.win 8).blk t).view.emb (ix2 (n0 := 1) (n1 := 2560) 0 (j 0))) = _
  have e : ((cfg0.win 8).blk t).view.emb (ix2 (n0 := 1) (n1 := 2560) 0 (j 0)) = ix2 (n0 := 1) (n1 := 2560) 0 (j 0) := by
    obtain ⟨-, -, -, -, -, -, -, -, ⟨e0, e1⟩, -⟩ := idx_facts t
    funext d; apply Fin.ext
    match d with
    | ⟨0, _⟩ => show win0_8.index t (0 : Fin 2) * 1 + 1 * 0 = 0; omega
    | ⟨1, _⟩ => show win0_8.index t (1 : Fin 2) * 2560 + 1 * (j 0).val = (j 0).val; omega
  rw [e, V_v4]
  exact shapeCast_apply _ _ _ j ((Shape.rowMajor_val_one (d := ![2560]) j).trans
    ((Shape.rowMajor_val_two (d := ![1, 2560]) (ix2 (n0 := 1) (n1 := 2560) 0 (j 0))).trans
      (by show 0 * 2560 + (j 0).val = (j 0).val; omega)).symm)

/-! ## The output blocks' place in their arrays -/

theorem emb9 (t : Fin cfg0.N) (r q : Fin 512) : ((cfg0.win 9).blk t).view.emb (ix2 r q) = ix2 (rowOf t r) q := by
  obtain ⟨-, -, -, -, -, -, -, -, -, ⟨e0, e1⟩, -⟩ := idx_facts t
  funext d; apply Fin.ext
  match d with
  | ⟨0, _⟩ => show win0_9.index t (0 : Fin 2) * 512 + 1 * r.val = 512 * t.val + r.val; omega
  | ⟨1, _⟩ => show win0_9.index t (1 : Fin 2) * 512 + 1 * q.val = q.val; omega

theorem emb10 (t : Fin cfg0.N) (r q : Fin 512) : ((cfg0.win 10).blk t).view.emb (ix2 r q) = ix2 (rowOf t r) q := by
  obtain ⟨-, -, -, -, -, -, -, -, -, -, ⟨e0, e1⟩⟩ := idx_facts t
  funext d; apply Fin.ext
  match d with
  | ⟨0, _⟩ => show win0_10.index t (0 : Fin 2) * 512 + 1 * r.val = 512 * t.val + r.val; omega
  | ⟨1, _⟩ => show win0_10.index t (1 : Fin 2) * 512 + 1 * q.val = q.val; omega

/-! ## What each point writes back -/

/-- What point `t` writes back to the hidden-state array is block `t` of the whole-array function. -/
theorem flushed9_eq (c : Dev nD) (t : Fin cfg0.N) :
    (dats m 0 c).flushed 9 t = ((cfg0.win 9).blk t).view.read (Elt Ideal) (hidG m c) := by
  show (cfg0.win 9).cut (grid0.coords t) ((dats m 0 c).after 9 t) = _
  rw [after_9]
  unfold out_9
  rw [View.canon_unit_zero hz]
  funext y
  obtain ⟨r, q, rfl⟩ : ∃ (r q : Fin 512), y = ix2 r q := ⟨y 0, y 1, eq_ix2 y⟩
  show hidBlk (iblk m c 0 t) (iblk m c 1 t) (iblk m c 2 t) (iblk m c 3 t) (iblk m c 4 t) (iblk m c 5 t) (iblk m c 6 t) (iblk m c 7 t) (iblk m c 8 t) (ix2 r q) = hidG m c (((cfg0.win 9).blk t).view.emb (ix2 r q))
  rw [emb9 t r q]
  unfold hidBlk
  simp only [View.ld_unit_zero (S := S512x256) hz, View.ld_unit_zero (S := S512x512) hz, View.ld_unit_zero (S := S256x2560) hz, View.ld_unit_zero (S := S512x2560) hz, View.ld_unit_zero (S := S1x2560) hz]
  refine (Cert.KernelIdeal.Row.hid_pay (iblk m c 0 t) (iblk m c 1 t) (iblk m c 2 t) (iblk m c 5 t) (iblk m c 6 t) (iblk m c 7 t) (iblk m c 8 t) (iblk m c 3 t) (iblk m c 4 t) r q).trans ?_
  show _ = Cert.Spec.hidRow (fun a => (m ((c : Thread nD τ).loc main_arg0)) (ix2 (rowOf t r) a)) (fun a => (m ((c : Thread nD τ).loc main_arg1)) (ix2 (rowOf t r) a)) (fun a => (m ((c : Thread nD τ).loc main_arg2)) (ix2 (rowOf t r) a)) (fun k => (m ((c : Thread nD τ).loc main_arg3)) (ix2 (rowOf t r) k)) (fun k => (m ((c : Thread nD τ).loc main_arg4)) (ix2 (rowOf t r) k)) (wU m c) (wT m c) (wS m c) (bias m c) q
  simp only [blk0 m c t r, blk1 m c t r, blk2 m c t r, blk3 m c t r, blk4 m c t r, blk5 m c t, blk6 m c t, blk7 m c t, bias8 m c t]

/-- What point `t` writes back to the cell-state array is block `t` of the whole-array function. -/
theorem flushed10_eq (c : Dev nD) (t : Fin cfg0.N) :
    (dats m 0 c).flushed 10 t = ((cfg0.win 10).blk t).view.read (Elt Ideal) (cellG m c) := by
  show (cfg0.win 10).cut (grid0.coords t) ((dats m 0 c).after 10 t) = _
  rw [after_10]
  unfold out_10
  rw [View.canon_unit_zero hz]
  funext y
  obtain ⟨r, q, rfl⟩ : ∃ (r q : Fin 512), y = ix2 r q := ⟨y 0, y 1, eq_ix2 y⟩
  show cellBlk (iblk m c 0 t) (iblk m c 1 t) (iblk m c 2 t) (iblk m c 3 t) (iblk m c 4 t) (iblk m c 5 t) (iblk m c 6 t) (iblk m c 7 t) (iblk m c 8 t) (ix2 r q) = cellG m c (((cfg0.win 10).blk t).view.emb (ix2 r q))
  rw [emb10 t r q]
  unfold cellBlk
  simp only [View.ld_unit_zero (S := S512x256) hz, View.ld_unit_zero (S := S512x512) hz, View.ld_unit_zero (S := S256x2560) hz, View.ld_unit_zero (S := S512x2560) hz, View.ld_unit_zero (S := S1x2560) hz]
  refine (Cert.KernelIdeal.Row.cell_pay (iblk m c 0 t) (iblk m c 1 t) (iblk m c 2 t) (iblk m c 5 t) (iblk m c 6 t) (iblk m c 7 t) (iblk m c 8 t) (iblk m c 3 t) (iblk m c 4 t) r q).trans ?_
  show _ = Cert.Spec.cellRow (fun a => (m ((c : Thread nD τ).loc main_arg0)) (ix2 (rowOf t r) a)) (fun a => (m ((c : Thread nD τ).loc main_arg1)) (ix2 (rowOf t r) a)) (fun a => (m ((c : Thread nD τ).loc main_arg2)) (ix2 (rowOf t r) a)) (fun k => (m ((c : Thread nD τ).loc main_arg3)) (ix2 (rowOf t r) k)) (fun k => (m ((c : Thread nD τ).loc main_arg4)) (ix2 (rowOf t r) k)) (wU m c) (wT m c) (wS m c) (bias m c) q
  simp only [blk0 m c t r, blk1 m c t r, blk2 m c t r, blk3 m c t r, blk4 m c t r, blk5 m c t, blk6 m c t, blk7 m c t, bias8 m c t]

/-! ## The 16 blocks cover the 8192 rows -/

theorem mem_blk9 (t : Fin cfg0.N) (i : S8192x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v5_0).slice (win0_9.rect t)).set ↔ _
  rw [View.set_slice_whole, Rect.mem_set_unit]
  exact Iff.rfl

/-- Every entry of the array lies in the block of the point that handles its row. -/
theorem cover9 (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  refine ⟨⟨(i 0).val / 512, lt_of_lt_of_eq (by omega : (i 0).val / 512 < 16) N_0.symm⟩, flush0_9 _, ?_⟩
  rw [mem_blk9]
  obtain ⟨-, -, -, -, -, -, -, -, -, ⟨e0, e1⟩, -⟩ := idx_facts ⟨(i 0).val / 512, lt_of_lt_of_eq (by omega : (i 0).val / 512 < 16) N_0.symm⟩
  intro a
  match a with
  | ⟨0, _⟩ =>
    show win0_9.index _ (0 : Fin 2) * 512 ≤ (i 0).val ∧ (i 0).val < win0_9.index _ (0 : Fin 2) * 512 + 512
    rw [e0]; show (i 0).val / 512 * 512 ≤ (i 0).val ∧ (i 0).val < (i 0).val / 512 * 512 + 512; omega
  | ⟨1, _⟩ =>
    show win0_9.index _ (1 : Fin 2) * 512 ≤ (i 1).val ∧ (i 1).val < win0_9.index _ (1 : Fin 2) * 512 + 512
    rw [e1]; omega

/-- The hidden-state array after the run. -/
theorem final9 (c : Dev nD) : (dats m 0 c).arrAt 9 cfg0.N = hidG m c :=
  (dats m 0 c).arrAt_eq_of_cover 9 (hidG m c) (fun t _ => flushed9_eq m c t) cover9

theorem mem_blk10 (t : Fin cfg0.N) (i : S8192x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v5_1).slice (win0_10.rect t)).set ↔ _
  rw [View.set_slice_whole, Rect.mem_set_unit]
  exact Iff.rfl

/-- Every entry of the array lies in the block of the point that handles its row. -/
theorem cover10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  refine ⟨⟨(i 0).val / 512, lt_of_lt_of_eq (by omega : (i 0).val / 512 < 16) N_0.symm⟩, flush0_10 _, ?_⟩
  rw [mem_blk10]
  obtain ⟨-, -, -, -, -, -, -, -, -, -, ⟨e0, e1⟩⟩ := idx_facts ⟨(i 0).val / 512, lt_of_lt_of_eq (by omega : (i 0).val / 512 < 16) N_0.symm⟩
  intro a
  match a with
  | ⟨0, _⟩ =>
    show win0_10.index _ (0 : Fin 2) * 512 ≤ (i 0).val ∧ (i 0).val < win0_10.index _ (0 : Fin 2) * 512 + 512
    rw [e0]; show (i 0).val / 512 * 512 ≤ (i 0).val ∧ (i 0).val < (i 0).val / 512 * 512 + 512; omega
  | ⟨1, _⟩ =>
    show win0_10.index _ (1 : Fin 2) * 512 ≤ (i 1).val ∧ (i 1).val < win0_10.index _ (1 : Fin 2) * 512 + 512
    rw [e1]; omega

/-- The cell-state array after the run. -/
theorem final10 (c : Dev nD) : (dats m 0 c).arrAt 10 cfg0.N = cellG m c :=
  (dats m 0 c).arrAt_eq_of_cover 10 (cellG m c) (fun t _ => flushed10_eq m c t) cover10

/-! ## The run, read -/

/-- Every weakly fair execution of the idealized kernel program terminates without a fault, with the two result
    arrays at the new hidden and cell states of every batch row and the 25 arguments unchanged. -/
theorem run : θ_run defs (onTc (τ := τ) (main (F := Ideal))) ⟨m, fun _ => 0, ρ⟩ fun r => ∀ c : Dev nD,
      r.2.mem ((c.tc : Thread nD τ).loc main_v5_0) = hidG m c
      ∧ r.2.mem ((c.tc : Thread nD τ).loc main_v5_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c => ⟨((h c).1 9).trans (final9 m c), ((h c).1 10).trans (final10 m c),
      kept_args m (dats m) (A_eq m) r h c⟩)
    (run_main m ρ)

end Cert.KernelIdeal.Arrays

end
-- ==== Proof.RefRow.lean ====
/-
  The reference's two results, read one operation at a time, are Spec's arrays: its three `dot_general`s are the
  inner products of a batch row with a column of the concatenated weights, the bias is broadcast down the rows, the
  five gates are column slices, and each sigmoid, spelt `1 / (1 + exp (-g))` on the host, is the logistic function.
-/
import proofs.«104384_j21534966022556_1_alg».proof.Proof.Gen.ReferenceIdeal.Read
import proofs.«104384_j21534966022556_1_alg».proof.Proof.Spec
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Idealize.ShloMosaic Idealize.ShloMosaic.ValueIdx

/-- The word `0x3F800000` is the number one. -/
theorem one_bits : Ideal.ofBits .f32 0x3F800000#32 = (1 : EReal) := by
  simp [Ideal.ofBits, Ideal.ieee, -EReal.coe_mul]; norm_num

/-- Entry `(p, j)` of the summed pre-activations is Spec's gate `j` of row `p`. -/
theorem gate_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (j : Fin 2560) :
    Read.val_main_v11 (F := Ideal) x0 x1 x2 x5 x6 x7 x8 x9 x10 x11 x12 x13 x14 x15 x16 x17 x18 x19 x20 x21 x22 x23 x24 (ix2 p j)
      = Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) j := by
  rw [Read.val_main_v11_apply, Read.val_main_v8_apply, Read.val_main_v6_apply, Read.val_main_v4_apply,
    Read.val_main_v5_apply, Read.val_main_v7_apply, Read.val_main_v10_apply, Read.val_main_v9_apply]
  have hl4 : ∀ k : Fin 256, Read.lidx_main_v4 (ix2 p j) k = ix2 p k := fun k =>
    funext fun a => Fin.ext (by match a with | ⟨0, _⟩ => rfl | ⟨1, _⟩ => rfl)
  have hr4 : ∀ k : Fin 256, Read.ridx_main_v4 (ix2 p j) k = ix2 k j := fun k =>
    funext fun a => Fin.ext (by match a with | ⟨0, _⟩ => rfl | ⟨1, _⟩ => rfl)
  have hl5 : ∀ k : Fin 512, Read.lidx_main_v5 (ix2 p j) k = ix2 p k := fun k =>
    funext fun a => Fin.ext (by match a with | ⟨0, _⟩ => rfl | ⟨1, _⟩ => rfl)
  have hr5 : ∀ k : Fin 512, Read.ridx_main_v5 (ix2 p j) k = ix2 k j := fun k =>
    funext fun a => Fin.ext (by match a with | ⟨0, _⟩ => rfl | ⟨1, _⟩ => rfl)
  have hl7 : ∀ k : Fin 512, Read.lidx_main_v7 (ix2 p j) k = ix2 p k := fun k =>
    funext fun a => Fin.ext (by match a with | ⟨0, _⟩ => rfl | ⟨1, _⟩ => rfl)
  have hr7 : ∀ k : Fin 512, Read.ridx_main_v7 (ix2 p j) k = ix2 k j := fun k =>
    funext fun a => Fin.ext (by match a with | ⟨0, _⟩ => rfl | ⟨1, _⟩ => rfl)
  have hb : Read.idx_main_v9 (Read.idx_main_v10 (ix2 p j)) = ix1 j :=
    funext fun a => Fin.ext (by match a with | ⟨0, _⟩ => rfl)
  simp only [hl4, hr4, hl5, hr5, hl7, hr7, hb, Ideal.addf_def]
  rfl

/-- The five column slices read the pre-activations at Spec's gate columns. -/
theorem slice0 (p : Fin 8192) (q : Fin 512) : Read.idx_main_v12 (ix2 p q) = ix2 p (Cert.Spec.col0 q) :=
  funext fun a => Fin.ext (by match a with | ⟨0, _⟩ => rfl | ⟨1, _⟩ => rfl)
theorem slice1 (p : Fin 8192) (q : Fin 512) : Read.idx_main_v13 (ix2 p q) = ix2 p (Cert.Spec.col1 q) :=
  funext fun a => Fin.ext (by match a with | ⟨0, _⟩ => rfl | ⟨1, _⟩ => exact Nat.add_comm _ _)
theorem slice2 (p : Fin 8192) (q : Fin 512) : Read.idx_main_v14 (ix2 p q) = ix2 p (Cert.Spec.col2 q) :=
  funext fun a => Fin.ext (by match a with | ⟨0, _⟩ => rfl | ⟨1, _⟩ => exact Nat.add_comm _ _)
theorem slice3 (p : Fin 8192) (q : Fin 512) : Read.idx_main_v15 (ix2 p q) = ix2 p (Cert.Spec.col3 q) :=
  funext fun a => Fin.ext (by match a with | ⟨0, _⟩ => rfl | ⟨1, _⟩ => exact Nat.add_comm _ _)
theorem slice4 (p : Fin 8192) (q : Fin 512) : Read.idx_main_v16 (ix2 p q) = ix2 p (Cert.Spec.col4 q) :=
  funext fun a => Fin.ext (by match a with | ⟨0, _⟩ => rfl | ⟨1, _⟩ => exact Nat.add_comm _ _)

/-- The host's `1 / (1 + exp (-g))` over column slice 0 is the logistic function of Spec's gate column 0. -/
theorem sig0_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v22 (F := Ideal) x0 x1 x2 x5 x6 x7 x8 x9 x10 x11 x12 x13 x14 x15 x16 x17 x18 x19 x20 x21 x22 x23 x24 (ix2 p q)
      = Ideal.logistic (Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) (Cert.Spec.col0 q)) := by
  rw [Read.val_main_v22_apply, Read.val_main_v21_apply, Read.val_main_cst_0_apply, Read.val_main_v20_apply,
    Read.val_main_v19_apply, Read.val_main_cst_apply, Read.val_main_v18_apply, Read.val_main_v17_apply,
    Read.val_main_v12_apply, slice0, gate_at, Ideal.ofBits_def, one_bits]
  rfl

/-- The host's `1 / (1 + exp (-g))` over column slice 1 is the logistic function of Spec's gate column 1. -/
theorem sig1_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v28 (F := Ideal) x0 x1 x2 x5 x6 x7 x8 x9 x10 x11 x12 x13 x14 x15 x16 x17 x18 x19 x20 x21 x22 x23 x24 (ix2 p q)
      = Ideal.logistic (Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) (Cert.Spec.col1 q)) := by
  rw [Read.val_main_v28_apply, Read.val_main_v27_apply, Read.val_main_cst_2_apply, Read.val_main_v26_apply,
    Read.val_main_v25_apply, Read.val_main_cst_1_apply, Read.val_main_v24_apply, Read.val_main_v23_apply,
    Read.val_main_v13_apply, slice1, gate_at, Ideal.ofBits_def, one_bits]
  rfl

/-- The host's `1 / (1 + exp (-g))` over column slice 2 is the logistic function of Spec's gate column 2. -/
theorem sig2_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v34 (F := Ideal) x0 x1 x2 x5 x6 x7 x8 x9 x10 x11 x12 x13 x14 x15 x16 x17 x18 x19 x20 x21 x22 x23 x24 (ix2 p q)
      = Ideal.logistic (Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) (Cert.Spec.col2 q)) := by
  rw [Read.val_main_v34_apply, Read.val_main_v33_apply, Read.val_main_cst_4_apply, Read.val_main_v32_apply,
    Read.val_main_v31_apply, Read.val_main_cst_3_apply, Read.val_main_v30_apply, Read.val_main_v29_apply,
    Read.val_main_v14_apply, slice2, gate_at, Ideal.ofBits_def, one_bits]
  rfl

/-- The host's `1 / (1 + exp (-g))` over column slice 3 is the logistic function of Spec's gate column 3. -/
theorem sig3_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v40 (F := Ideal) x0 x1 x2 x5 x6 x7 x8 x9 x10 x11 x12 x13 x14 x15 x16 x17 x18 x19 x20 x21 x22 x23 x24 (ix2 p q)
      = Ideal.logistic (Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) (Cert.Spec.col3 q)) := by
  rw [Read.val_main_v40_apply, Read.val_main_v39_apply, Read.val_main_cst_6_apply, Read.val_main_v38_apply,
    Read.val_main_v37_apply, Read.val_main_cst_5_apply, Read.val_main_v36_apply, Read.val_main_v35_apply,
    Read.val_main_v15_apply, slice3, gate_at, Ideal.ofBits_def, one_bits]
  rfl

/-- The candidate: `tanh` of Spec's gate column 4. -/
theorem cand_at (x0 : (⟨S8192x256, .f32⟩ : BufTy).Contents (Elt Ideal)) (x1 x2 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v41 (F := Ideal) x0 x1 x2 x5 x6 x7 x8 x9 x10 x11 x12 x13 x14 x15 x16 x17 x18 x19 x20 x21 x22 x23 x24 (ix2 p q)
      = Ideal.tanh (Cert.Spec.gate (fun a => x0 (ix2 p a)) (fun a => x1 (ix2 p a)) (fun a => x2 (ix2 p a)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) (Cert.Spec.col4 q)) := by
  rw [Read.val_main_v41_apply, Read.val_main_v16_apply, slice4, gate_at]
  rfl

/-- The reference's new cell state at `(p, q)` is Spec's row formula. -/
theorem cell_at (x0 : (⟨S8192x256, .f32⟩ : BufTy).Contents (Elt Ideal)) (x1 x2 x3 x4 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) (p : Fin 8192) (q : Fin 512) :
    Read.val_main_v46 (F := Ideal) x0 x1 x2 x3 x4 x5 x6 x7 x8 x9 x10 x11 x12 x13 x14 x15 x16 x17 x18 x19 x20 x21 x22 x23 x24 (ix2 p q)
      = Cert.Spec.cellRow (fun a => x0 (ix2 p a)) (fun a => x1 (ix2 p a)) (fun a => x2 (ix2 p a))
          (fun k => x3 (ix2 p k)) (fun k => x4 (ix2 p k)) (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) q := by
  rw [Read.val_main_v46_apply, Read.val_main_v44_apply, Read.val_main_v42_apply, Read.val_main_v43_apply,
    Read.val_main_v45_apply, sig0_at, sig1_at, sig2_at, cand_at]
  rfl

/-- The reference's new cell state is Spec's, over the concatenated weights and biases. -/
theorem ref_cell (x0 : (⟨S8192x256, .f32⟩ : BufTy).Contents (Elt Ideal)) (x1 x2 x3 x4 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) :
    Read.val_main_v46 (F := Ideal) x0 x1 x2 x3 x4 x5 x6 x7 x8 x9 x10 x11 x12 x13 x14 x15 x16 x17 x18 x19 x20 x21 x22 x23 x24
      = Cert.Spec.cellArr x0 x1 x2 x3 x4 (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) := by
  funext i
  obtain ⟨p, q, rfl⟩ : ∃ (p : Fin 8192) (q : Fin 512), i = ix2 p q := ⟨i 0, i 1, eq_ix2 i⟩
  rw [cell_at]
  rfl

/-- The reference's new hidden state is Spec's, over the concatenated weights and biases. -/
theorem ref_hid (x0 : (⟨S8192x256, .f32⟩ : BufTy).Contents (Elt Ideal)) (x1 x2 x3 x4 : (⟨S8192x512, .f32⟩ : BufTy).Contents (Elt Ideal)) (x5 : (⟨S256x512, .f32⟩ : BufTy).Contents (Elt Ideal)) (x6 x7 : (⟨S512x512, .f32⟩ : BufTy).Contents (Elt Ideal)) (x8 : (⟨S512, .f32⟩ : BufTy).Contents (Elt Ideal)) (x9 : (⟨S256x512, .f32⟩ : BufTy).Contents (Elt Ideal)) (x10 x11 : (⟨S512x512, .f32⟩ : BufTy).Contents (Elt Ideal)) (x12 : (⟨S512, .f32⟩ : BufTy).Contents (Elt Ideal)) (x13 : (⟨S256x512, .f32⟩ : BufTy).Contents (Elt Ideal)) (x14 x15 : (⟨S512x512, .f32⟩ : BufTy).Contents (Elt Ideal)) (x16 : (⟨S512, .f32⟩ : BufTy).Contents (Elt Ideal)) (x17 : (⟨S256x512, .f32⟩ : BufTy).Contents (Elt Ideal)) (x18 x19 : (⟨S512x512, .f32⟩ : BufTy).Contents (Elt Ideal)) (x20 : (⟨S512, .f32⟩ : BufTy).Contents (Elt Ideal)) (x21 : (⟨S256x512, .f32⟩ : BufTy).Contents (Elt Ideal)) (x22 x23 : (⟨S512x512, .f32⟩ : BufTy).Contents (Elt Ideal)) (x24 : (⟨S512, .f32⟩ : BufTy).Contents (Elt Ideal)) :
    Read.val_main_v48 (F := Ideal) x0 x1 x2 x3 x4 x5 x6 x7 x8 x9 x10 x11 x12 x13 x14 x15 x16 x17 x18 x19 x20 x21 x22 x23 x24
      = Cert.Spec.hidArr x0 x1 x2 x3 x4 (Read.val_main_v0 (F := Ideal) x5 x9 x13 x17 x21) (Read.val_main_v1 (F := Ideal) x6 x10 x14 x18 x22) (Read.val_main_v2 (F := Ideal) x7 x11 x15 x19 x23) (Read.val_main_v3 (F := Ideal) x8 x12 x16 x20 x24) := by
  funext i
  obtain ⟨p, q, rfl⟩ : ∃ (p : Fin 8192) (q : Fin 512), i = ix2 p q := ⟨i 0, i 1, eq_ix2 i⟩
  rw [Read.val_main_v48_apply, Read.val_main_v47_apply, sig3_at, cell_at]
  rfl

end Cert.ReferenceIdeal.Row

end
-- ==== Proof.lean ====
/-
  The fused spatio-temporal LSTM cell step, kernel against reference.

  Both programs concatenate the five gates' weights column-wise and compute, for every batch row, the 2560
  pre-activations  g = x·U + h_t·W_t + h_s·W_s + b,  the gates σ(g) on four column slices and tanh on the fifth,
  the new cell state  c = i·c̃ + f_t·c_t + f_s·c_s  and the new hidden state  h = o·tanh c.  The kernel does it 512
  rows at a time over a grid of 16 points, with the matrix products' operands passed through a narrower float
  format; the reference does it in one piece and spells σ as 1 / (1 + exp (−g)). On the extended reals the
  change of format is the identity, a matrix product into a zero accumulator is the plain sum of products, and
  σ is one function however it is spelt, so both results are the same function of the arguments (Spec), row by
  row: no algebraic law beyond that is used, and the finiteness of the inputs is never needed.

  Frames: the kernel programs' by the pipeline run of IdealFrame / BitsFrame; the reference's by its run.
  The idealization rewrote nothing, so `preserves` is trivial.
-/
import proofs.«104384_j21534966022556_1_alg».proof.Defs
import proofs.«104384_j21534966022556_1_alg».proof.Proof.Gen.Kernel
import proofs.«104384_j21534966022556_1_alg».proof.Proof.Gen.KernelIdeal
import proofs.«104384_j21534966022556_1_alg».proof.Proof.Gen.ReferenceIdeal
import proofs.«104384_j21534966022556_1_alg».proof.Proof.Gen.Pre_finite_inputs
import proofs.«104384_j21534966022556_1_alg».proof.Proof.Gen.ReferenceIdeal.Run
import proofs.«104384_j21534966022556_1_alg».proof.Proof.Gen.ReferenceIdeal.Read
import proofs.«104384_j21534966022556_1_alg».proof.Proof.BitsFrame
import proofs.«104384_j21534966022556_1_alg».proof.Proof.IdealFrame
import proofs.«104384_j21534966022556_1_alg».proof.Proof.KernelValue
import proofs.«104384_j21534966022556_1_alg».proof.Proof.RefRow
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

/-- The reference's run ends with its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- On arguments that agree the reference's new hidden state is the kernel's whole-array function: the
    reference's is Spec's over its own concatenations, which are the same concatenations of equal pieces. -/
theorem hid_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Value.res_main_v48 m' c = Cert.KernelIdeal.Arrays.hidG m c := by
  obtain ⟨h0, h1, h2, h3, h4, h5, h6, h7, h8, h9, h10, h11, h12, h13, h14, h15, h16, h17, h18, h19, h20, h21, h22, h23, h24⟩ := hag
  rw [Cert.ReferenceIdeal.Read.val_main_v48_eq, Cert.ReferenceIdeal.Row.ref_hid, h0, h1, h2, h3, h4, h5, h6, h7, h8, h9, h10, h11, h12, h13, h14, h15, h16, h17, h18, h19, h20, h21, h22, h23, h24]
  rfl

/-- The same for the new cell state. -/
theorem cell_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Value.res_main_v46 m' c = Cert.KernelIdeal.Arrays.cellG m c := by
  obtain ⟨h0, h1, h2, h3, h4, h5, h6, h7, h8, h9, h10, h11, h12, h13, h14, h15, h16, h17, h18, h19, h20, h21, h22, h23, h24⟩ := hag
  rw [Cert.ReferenceIdeal.Read.val_main_v46_eq, Cert.ReferenceIdeal.Row.ref_cell, h0, h1, h2, h3, h4, h5, h6, h7, h8, h9, h10, h11, h12, h13, h14, h15, h16, h17, h18, h19, h20, h21, h22, h23, h24]
  rfl

/-- Both idealized programs end with the new hidden state and the new cell state of Spec over the column-wise
    concatenated weights of arguments that agree. -/
theorem algebraic : Cert.algebraic_KernelIdeal_ReferenceIdeal := by
  intro m ρ m' ρ' _ hagree
  refine ⟨fun c => Cert.KernelIdeal.Arrays.hidG m c, fun c => Cert.KernelIdeal.Arrays.cellG m c,
    Cert.KernelIdeal.Arrays.run m ρ, ?_⟩
  exact (θ_run Cert.ReferenceIdeal.defs _ _).mono (fun _ h c =>
      ⟨(h c).1.trans (hid_agree m m' c (hagree c)), (h c).2.1.trans (cell_agree m m' c (hagree c)), (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
